-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x96x96x96 : Shape := ⟨5, ![4, 32, 96, 96, 96]⟩
abbrev S4x64 : Shape := ⟨2, ![4, 64]⟩
abbrev S32x64 : Shape := ⟨2, ![32, 64]⟩
abbrev S32 : Shape := ⟨1, ![32]⟩
abbrev S32x32 : Shape := ⟨2, ![32, 32]⟩
abbrev S_ : Shape := ⟨0, ![]⟩

class Facts : Prop where
  bcast_S_S4x32x96x96x96 : S_.BroadcastsInDim S4x32x96x96x96 (![] : Fin 0 → Fin S4x32x96x96x96.rank)
  reducesTo_S4x32x96x96x96_S_d0_1_2_3_4 : S4x32x96x96x96.ReducesTo [0, 1, 2, 3, 4] S_
  h_S_ : 0 < S_.numel
  bcast_S_S4x64 : S_.BroadcastsInDim S4x64 (![] : Fin 0 → Fin S4x64.rank)
  reducesTo_S4x64_S_d0_1 : S4x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32 .f32) (main_arg6 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S4x32x96x96x96 .f32) (main_arg1 : FVec F S4x64 .f32) (main_arg2 : FVec F S32x64 .f32) (main_arg3 : FVec F S32 .f32) (main_arg4 : FVec F S32x32 .f32) (main_arg5 : FVec F S32 .f32) (main_arg6 : FVec F S32 .f32) : IVec S_ 1 :=
  let main_v0 : FVec F S4x32x96x96x96 .f32 := Host.absf main_arg0
  let main_cst : FVec F S_ .f32 := constant S_ .f32 0x7F800000#32
  let main_v1 : FVec F S4x32x96x96x96 .f32 := broadcastInDim S4x32x96x96x96 ![] bcast_S_S4x32x96x96x96 main_cst
  let main_v2 : IVec S4x32x96x96x96 1 := cmpf .olt main_v0 main_v1
  let main_c : IVec S_ 1 := constantI S_ 1 1#1
  let main_v3 : IVec S_ 1 := (fun x v => Host.reduce IntOp.andi x v reducesTo_S4x32x96x96x96_S_d0_1_2_3_4 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_v13 main_v16
-- ==== Kernel.lean ====
abbrev S4x32x96x96x96 : Shape := ⟨5, ![4, 32, 96, 96, 96]⟩
abbrev S4x64 : Shape := ⟨2, ![4, 64]⟩
abbrev S32x64 : Shape := ⟨2, ![32, 64]⟩
abbrev S32 : Shape := ⟨1, ![32]⟩
abbrev S32x32 : Shape := ⟨2, ![32, 32]⟩
abbrev S4x32 : Shape := ⟨2, ![4, 32]⟩
abbrev S1x32 : Shape := ⟨2, ![1, 32]⟩
abbrev S4x32x1x1x1 : Shape := ⟨5, ![4, 32, 1, 1, 1]⟩
abbrev S4x64x96x96x96 : Shape := ⟨5, ![4, 64, 96, 96, 96]⟩
abbrev S1x32x4x96x96 : Shape := ⟨5, ![1, 32, 4, 96, 96]⟩
abbrev S1x32x1x1x1 : Shape := ⟨5, ![1, 32, 1, 1, 1]⟩
abbrev S1x64x4x96x96 : Shape := ⟨5, ![1, 64, 4, 96, 96]⟩

abbrev nBuf : Space → Nat
  | .hbm => 10
  | .vmem => 13
  | .smem => 0
  | _ => 0

abbrev bufTy : (tb : Table) → Fin (tcTables nBuf tb) → BufTy
  | .hbm, ⟨0, _⟩ => ⟨S4x32x96x96x96, .f32⟩
  | .hbm, ⟨1, _⟩ => ⟨S4x64, .f32⟩
  | .hbm, ⟨2, _⟩ => ⟨S32x64, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S4x32, .f32⟩
  | .hbm, ⟨8, _⟩ => ⟨S4x32x1x1x1, .f32⟩
  | .hbm, ⟨9, _⟩ => ⟨S4x64x96x96x96, .f32⟩
  | .local _ .vmem, ⟨0, _⟩ => ⟨S4x64, .f32⟩
  | .local _ .vmem, ⟨1, _⟩ => ⟨S32x64, .f32⟩
  | .local _ .vmem, ⟨2, _⟩ => ⟨S32, .f32⟩
  | .local _ .vmem, ⟨3, _⟩ => ⟨S32x32, .f32⟩
  | .local _ .vmem, ⟨4, _⟩ => ⟨S32, .f32⟩
  | .local _ .vmem, ⟨5, _⟩ => ⟨S32, .f32⟩
  | .local _ .vmem, ⟨6, _⟩ => ⟨S4x32, .f32⟩
  | .local _ .vmem, ⟨7, _⟩ => ⟨S1x32x4x96x96, .f32⟩
  | .local _ .vmem, ⟨8, _⟩ => ⟨S1x32x4x96x96, .f32⟩
  | .local _ .vmem, ⟨9, _⟩ => ⟨S1x32x1x1x1, .f32⟩
  | .local _ .vmem, ⟨10, _⟩ => ⟨S1x32x1x1x1, .f32⟩
  | .local _ .vmem, ⟨11, _⟩ => ⟨S1x64x4x96x96, .f32⟩
  | .local _ .vmem, ⟨12, _⟩ => ⟨S1x64x4x96x96, .f32⟩
  | _, _ => ⟨S4x32x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![4, 24], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x32x4x96x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x1x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x4x96x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S4x64_S4x64_0_0 : ∀ a, (![0, 0] : Fin 2 → Nat) a + S4x64.size a ≤ S4x64.size a
  h_S4x64 : 0 < S4x64.numel
  inb_S32x64_S32x64_0_0 : ∀ a, (![0, 0] : Fin 2 → Nat) a + S32x64.size a ≤ S32x64.size a
  h_S32x64 : 0 < S32x64.numel
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  shapeCasts_S32_S1x32 : S32.ShapeCasts S1x32
  broadcasts_S1x32_S4x32 : S1x32.Broadcasts S4x32
  reduces_S4x32_S32 : S4x32.Reduces [0] S32
  inb_S4x32_S4x32_0_0 : ∀ a, (![0, 0] : Fin 2 → Nat) a + S4x32.size a ≤ S4x32.size a
  h_S4x32 : 0 < S4x32.numel
  shapeCasts_S4x32_S4x32x1x1x1 : S4x32.ShapeCasts S4x32x1x1x1
  inb_S1x32x4x96x96_S1x32x4x96x96_0_0_0_0_0 : ∀ a, (![0, 0, 0, 0, 0] : Fin 5 → Nat) a + S1x32x4x96x96.size a ≤ S1x32x4x96x96.size a
  h_S1x32x4x96x96 : 0 < S1x32x4x96x96.numel
  inb_S1x64x4x96x96_S1x32x4x96x96_0_0_0_0_0 : ∀ a, (![0, 0, 0, 0, 0] : Fin 5 → Nat) a + S1x32x4x96x96.size a ≤ S1x64x4x96x96.size a
  inb_S1x32x1x1x1_S1x32x1x1x1_0_0_0_0_0 : ∀ a, (![0, 0, 0, 0, 0] : Fin 5 → Nat) a + S1x32x1x1x1.size a ≤ S1x32x1x1x1.size a
  h_S1x32x1x1x1 : 0 < S1x32x1x1x1.numel
  shapeCasts_S1x32x1x1x1_S1x32x1x1x1 : S1x32x1x1x1.ShapeCasts S1x32x1x1x1
  broadcasts_S1x32x1x1x1_S1x32x4x96x96 : S1x32x1x1x1.Broadcasts S1x32x4x96x96
  inb_S1x64x4x96x96_S1x32x4x96x96_0_32_0_0_0 : ∀ a, (![0, 32, 0, 0, 0] : Fin 5 → Nat) a + S1x32x4x96x96.size a ≤ S1x64x4x96x96.size a
  dot_S4x64_S32x64_S4x32_1_1_0_0_n_n_wf : DotDims.WF S4x64 S32x64 S4x32 [1] [1] [0] [0] [] []
  dot_S4x32_S32x32_S4x32_1_1_0_0_n_n_wf : DotDims.WF S4x32 S32x32 S4x32 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x64.size a ≤ S4x64.size a
  hwx0_0 : ∀ i : grid0.Coords, EltTy.bits .f32 = 32 ∨ (Rect.block (s := S4x64) S4x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x32.size a ≤ S4x32.size a
  hwx0_6 : ∀ i : grid0.Coords, EltTy.bits .f32 = 32 ∨ (Rect.block (s := S4x32) S4x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x4x96x96.size a ≤ S4x32x96x96x96.size a
  hwx1_0 : ∀ i : grid1.Coords, EltTy.bits .f32 = 32 ∨ (Rect.block (s := S4x32x96x96x96) S1x32x4x96x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x1x1x1.size a ≤ S4x32x1x1x1.size a
  hwx1_1 : ∀ i : grid1.Coords, EltTy.bits .f32 = 32 ∨ (Rect.block (s := S4x32x1x1x1) S1x32x1x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x4x96x96.size a ≤ S4x64x96x96x96.size a
  hwx1_2 : ∀ i : grid1.Coords, EltTy.bits .f32 = 32 ∨ (Rect.block (s := S4x64x96x96x96) S1x64x4x96x96.size (cc1_transform_2 i) (hinb1_2 i)).WholeWords (EltTy.packing .f32)

variable [Facts₀]

def dot_S4x64_S32x64_S4x32_1_1_0_0_n_n : DotDims S4x64 S32x64 S4x32 where
  lhsContracting := [1]
  rhsContracting := [1]
  lhsNonContracting := [0]
  rhsNonContracting := [0]
  lhsBatch := []
  rhsBatch := []
  wf := dot_S4x64_S32x64_S4x32_1_1_0_0_n_n_wf
def dot_S4x32_S32x32_S4x32_1_1_0_0_n_n : DotDims S4x32 S32x32 S4x32 where
  lhsContracting := [1]
  rhsContracting := [1]
  lhsNonContracting := [0]
  rhsNonContracting := [0]
  lhsBatch := []
  rhsBatch := []
  wf := dot_S4x32_S32x32_S4x32_1_1_0_0_n_n_wf

abbrev win0_0 : Pipeline.Window sig grid0 :=
  Pipeline.Window.ofSpec (Memref.whole main_arg1) S4x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S4x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x32x4x96x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x32x1x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64x4x96x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x32x96x96x96 : Shape := ⟨5, ![4, 32, 96, 96, 96]⟩
abbrev S4x64 : Shape := ⟨2, ![4, 64]⟩
abbrev S32x64 : Shape := ⟨2, ![32, 64]⟩
abbrev S32 : Shape := ⟨1, ![32]⟩
abbrev S32x32 : Shape := ⟨2, ![32, 32]⟩
abbrev S64x32 : Shape := ⟨2, ![64, 32]⟩
abbrev S4x32 : Shape := ⟨2, ![4, 32]⟩
abbrev S1x32 : Shape := ⟨2, ![1, 32]⟩
abbrev S_ : Shape := ⟨0, ![]⟩
abbrev S4x32x1x1x1 : Shape := ⟨5, ![4, 32, 1, 1, 1]⟩
abbrev S4x64x96x96x96 : Shape := ⟨5, ![4, 64, 96, 96, 96]⟩

abbrev nBuf : Space → Nat
  | .hbm => 50
  | .vmem => 0
  | .smem => 0
  | _ => 0

abbrev bufTy : (tb : Table) → Fin (tcTables nBuf tb) → BufTy
  | .hbm, ⟨0, _⟩ => ⟨S4x32x96x96x96, .f32⟩
  | .hbm, ⟨1, _⟩ => ⟨S4x64, .f32⟩
  | .hbm, ⟨2, _⟩ => ⟨S32x64, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S64x32, .f32⟩
  | .hbm, ⟨8, _⟩ => ⟨S4x32, .f32⟩
  | .hbm, ⟨9, _⟩ => ⟨S1x32, .f32⟩
  | .hbm, ⟨10, _⟩ => ⟨S4x32, .f32⟩
  | .hbm, ⟨11, _⟩ => ⟨S4x32, .f32⟩
  | .hbm, ⟨12, _⟩ => ⟨S32x32, .f32⟩
  | .hbm, ⟨13, _⟩ => ⟨S4x32, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S4x32, .f32⟩
  | .hbm, ⟨22, _⟩ => ⟨S4x32, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S1x32, .f32⟩
  | .hbm, ⟨29, _⟩ => ⟨S4x32, .f32⟩
  | .hbm, ⟨30, _⟩ => ⟨S4x32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S1x32, .f32⟩
  | .hbm, ⟨36, _⟩ => ⟨S4x32, .f32⟩
  | .hbm, ⟨37, _⟩ => ⟨S4x32, .f32⟩
  | .hbm, ⟨38, _⟩ => ⟨S1x32, .f32⟩
  | .hbm, ⟨39, _⟩ => ⟨S4x32, .f32⟩
  | .hbm, ⟨40, _⟩ => ⟨S4x32, .f32⟩
  | .hbm, ⟨41, _⟩ => ⟨S1x32, .f32⟩
  | .hbm, ⟨42, _⟩ => ⟨S4x32, .f32⟩
  | .hbm, ⟨43, _⟩ => ⟨S4x32, .f32⟩
  | .hbm, ⟨44, _⟩ => ⟨S_, .f32⟩
  | .hbm, ⟨45, _⟩ => ⟨S4x32, .f32⟩
  | .hbm, ⟨46, _⟩ => ⟨S4x32, .f32⟩
  | .hbm, ⟨47, _⟩ => ⟨S4x32x1x1x1, .f32⟩
  | .hbm, ⟨48, _⟩ => ⟨S4x32x96x96x96, .f32⟩
  | .hbm, ⟨49, _⟩ => ⟨S4x64x96x96x96, .f32⟩
  | _, _ => ⟨S4x32x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  transposes_S32x64_S64x32_1_0 : S32x64.Transposes [1, 0] S64x32
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  transposes_S32x32_S32x32_1_0 : S32x32.Transposes [1, 0] S32x32
  reducesTo_S4x32_S32_d0 : S4x32.ReducesTo [0] S32
  h_S_ : 0 < S_.numel
  bcast_S_S32 : S_.BroadcastsInDim S32 (![] : Fin 0 → Fin S32.rank)
  bcast_S_S4x32 : S_.BroadcastsInDim S4x32 (![] : Fin 0 → Fin S4x32.rank)
  bcast_S4x32_S4x32x1x1x1_0_1 : S4x32.BroadcastsInDim S4x32x1x1x1 (![0, 1] : Fin 2 → Fin S4x32x1x1x1.rank)
  bcast_S4x32x1x1x1_S4x32x96x96x96_0_1_2_3_4 : S4x32x1x1x1.BroadcastsInDim S4x32x96x96x96 (![0, 1, 2, 3, 4] : Fin 5 → Fin S4x32x96x96x96.rank)
  concatenates_S4x32x96x96x96_S4x32x96x96x96_S4x64x96x96x96_d1 : Shape.Concatenates [S4x32x96x96x96, S4x32x96x96x96] S4x64x96x96x96 1
  dot_S4x64_S64x32_S4x32_1_0_0_1_n_n_wf : DotDims.WF S4x64 S64x32 S4x32 [1] [0] [0] [1] [] []
  dot_S4x32_S32x32_S4x32_1_0_0_1_n_n_wf : DotDims.WF S4x32 S32x32 S4x32 [1] [0] [0] [1] [] []

variable [Facts₀]

def dot_S4x64_S64x32_S4x32_1_0_0_1_n_n : DotDims S4x64 S64x32 S4x32 where
  lhsContracting := [1]
  rhsContracting := [0]
  lhsNonContracting := [0]
  rhsNonContracting := [1]
  lhsBatch := []
  rhsBatch := []
  wf := dot_S4x64_S64x32_S4x32_1_0_0_1_n_n_wf
def dot_S4x32_S32x32_S4x32_1_0_0_1_n_n : DotDims S4x32 S32x32 S4x32 where
  lhsContracting := [1]
  rhsContracting := [0]
  lhsNonContracting := [0]
  rhsNonContracting := [1]
  lhsBatch := []
  rhsBatch := []
  wf := dot_S4x32_S32x32_S4x32_1_0_0_1_n_n_wf

class Facts : Prop extends Facts₀ where

variable [Facts]
-- ==== Proof.LibDotNT.lean ====
/-
  A product of a matrix with a transposed matrix, read at an entry as the textbook sum.

  A product of an `M × K` matrix `A` by an `N × K` matrix `B` whose dimension numbers contract the LAST axis of both
  operands, keep the left rows and the right rows in that order, and have no batch axis: the product `A · Bᵀ`. At
  result entry `(i, j)` and contraction position `k` the left operand is read at `(i, k)` and the right at `(j, k)`,
  and the one-axis contraction index set is its coordinate range `Fin K`; so the sum over the contraction index is
  `∑ q : Fin K, A (i, q) * B (j, q)`. Stated for ANY dimension-number record with those lists and for operands of any
  two float formats, at the extended reals, for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

variable {M K N : Nat} (d : DotDims (⟨2, ![M, K]⟩ : Shape) (⟨2, ![N, K]⟩ : Shape) (⟨2, ![M, N]⟩ : Shape))
  (hlc : d.lhsContracting = [1]) (hrc : d.rhsContracting = [1]) (hln : d.lhsNonContracting = [0])
  (hrn : d.rhsNonContracting = [0]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the number of columns of both operands. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's row is the result's column. -/
theorem rhs_row (i : Fin M) (j : Fin N) (k : d.contr.Idx) : (d.rhsIdx (ix2 i j) k 0).val = j.val := by
  obtain ⟨lc, rc, ln, rn, lb, rb, wf⟩ := d
  subst hlc hrc hln hrn hlb hrb
  rfl

/-- THE CONTRACTION'S SUM OF `A · Bᵀ` at entry `(i, j)`: at contraction position `k` with coordinate `q` the left
    operand is read at `(i, q)` and the right at `(j, q)`, and the positions correspond one to one to the coordinates
    `q : Fin K`, so the sum is re-indexed by them. -/
theorem nt_sum (l : (⟨2, ![M, K]⟩ : Shape).Idx → EReal) (r : (⟨2, ![N, K]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 j q) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 j (contrEquiv1 d K h1 hK k) := by
    intro k
    funext a
    refine Fin.ext ?_
    match a with
    | ⟨0, _⟩ => exact rhs_row d hlc hrc hln hrn hlb hrb i j k
    | ⟨1, _⟩ => exact d.rhsIdx_val_of_single hrc (ix2 i j) k
  calc (∑ k : d.contr.Idx, l (d.lhsIdx (ix2 i j) k) * r (d.rhsIdx (ix2 i j) k))
      = ∑ k : d.contr.Idx, (fun q : Fin K => l (ix2 i q) * r (ix2 j q)) (contrEquiv1 d K h1 hK k) :=
        Finset.sum_congr rfl fun k _ => by rw [hl k, hr k]
    _ = ∑ q : Fin K, l (ix2 i q) * r (ix2 j q) :=
        Equiv.sum_comp (contrEquiv1 d K h1 hK) fun q : Fin K => l (ix2 i q) * r (ix2 j q)

/-- A block product `A · Bᵀ` into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![N, K]⟩ : Shape) φ₂) (i : Fin M) (j : Fin N) :
    matmul d prec l r (constant (⟨2, ![M, N]⟩ : Shape) .f32 0x00000000#32) (ix2 i j)
      = ∑ q : Fin K, l (ix2 i q) * r (ix2 j q) := by
  show FloatOps.matmul d prec l r (constant (⟨2, ![M, N]⟩ : Shape) .f32 0x00000000#32) (ix2 i j) = _
  rw [Ideal.matmul_constant_zero_apply]
  exact nt_sum d hlc hrc hln hrn hlb hrb l r i j

/-- The host's product `A · Bᵀ`, read at `(i, j)`, is that sum. -/
theorem hostDot_apply {φ₁ φ₂ : FTy} (prec : Option ContractPrecision) (l : FVec Ideal (⟨2, ![M, K]⟩ : Shape) φ₁)
    (r : FVec Ideal (⟨2, ![N, K]⟩ : Shape) φ₂) (i : Fin M) (j : Fin N) :
    Host.dotGeneral d prec l r (ix2 i j) = ∑ q : Fin K, l (ix2 i q) * r (ix2 j q) := by
  simp only [Host.dotGeneral]
  rw [Ideal.dotGeneral_apply]
  exact nt_sum d hlc hrc hln hrn hlb hrb l r i j

end Cert.LibDotNT

end
-- ==== Proof.LibRowOfVector.lean ====
/-
  A vector of length n laid out as a matrix with one row. Two host operations do this: a reshape [n] → [1, n] and a
  broadcast_in_dim along dims = [1]. They are the same function: entry (0, q) of either is entry q of the vector,
  because the row-major position of (0, q) in [1, n] is q.
-/
import Idealize.ShloMosaic.Lib.Pipeline.Value

namespace Cert.Lib

open Idealize.ShloMosaic

/-- The reshape of a length-n vector to one row and its broadcast_in_dim along the column axis are one function. -/
theorem reshape_row_eq_broadcastInDim {α : Type} {n : Nat} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  have hj0 : (j 0).val = 0 := by
    have h0 := (j 0).isLt
    have e : (⟨2, ![1, n]⟩ : Shape).size 0 = 1 := rfl
    omega
  have hj1 : (j 1).val < n := (j 1).isLt
  -- the vector's index under (0, q) is q
  let k : (⟨1, ![n]⟩ : Shape).Idx := fun a => match a with | ⟨0, _⟩ => ⟨(j 1).val, hj1⟩
  have hk0 : (k 0).val = (j 1).val := rfl
  rw [shapeCast_apply b h j k (by
        rw [Shape.rowMajor_val_one, Shape.rowMajor_val_two, hk0, hj0]
        show (j 1).val = 0 * n + (j 1).val
        omega),
      broadcastInDim_apply ![1] h' b j k (fun a => by
        match a with
        | ⟨0, _⟩ =>
          show (j 1).val = if n = 1 then 0 else (j 1).val
          by_cases hn : n = 1
          · rw [if_pos hn]; omega
          · rw [if_neg hn])]

end Cert.Lib
-- ==== Proof.ActBridge.lean ====
/-
  The activation table: the first kernel's stored value is the reference's activation, array for array.

  Both programs compute, from the tabular features `x` [4, 64], the projection `Wp` [32, 64] with bias `bp` [32], the
  channel mix `Wc` [32, 32] and the affine pair `γ`, `β` [32]:
    proj (n, k)  = ∑ t, x (n, t) · Wp (k, t) + bp k
    mixed (n, c) = ∑ k, proj (n, k) · Wc (c, k)
    mean c = (∑ n, mixed (n, c)) / 4,   var c = (∑ n, (mixed (n, c) − mean c)²) / 4
    act (n, c)   = max (((mixed (n, c) − mean c) · (var c + ε)^(−1/2)) · γ c + β c) 0
  The kernel writes the two products as products with a transposed right factor and keeps the per-channel statistics as
  one-row matrices [1, 32]; the reference transposes the right factors first and keeps the statistics as vectors [32],
  which it lays out as one row only to broadcast them. On the extended reals these are the same operations in the same
  order on the same numbers: no sum is regrouped and no factor moves, so no finiteness is needed. The proof walks the
  kernel's value stage by stage and names each stage as the reference's.
-/
import proofs.«135928_j54065048322100_1_alg».proof.Proof.Gen.KernelIdeal.Skeleton
import proofs.«135928_j54065048322100_1_alg».proof.Proof.Gen.ReferenceIdeal.Read
import proofs.«135928_j54065048322100_1_alg».proof.Proof.LibDotNT
import proofs.«135928_j54065048322100_1_alg».proof.Proof.LibRowOfVector
import Idealize.ShloMosaic.Lib.Pipeline.Value
import Idealize.ShloMosaic.Lib.ValueIdx
import Idealize.ShloMosaic.PureOps.Ideal.Laws

noncomputable section

namespace Cert.Act

open Idealize.ShloMosaic Idealize.ShloMosaic.ValueIdx

/-! ## Layout: a vector as a row, a row down four rows -/

section Layout
variable {α : Type}

/-- A row [1, 32] repeated down four rows is, by either program's broadcast, the row read at the column. -/
theorem rows_of_row (w : Cert.KernelIdeal.S1x32.Idx → α) :
    broadcastTo Cert.KernelIdeal.S4x32 w Cert.KernelIdeal.Gen.broadcasts_S1x32_S4x32
      = broadcastInDim Cert.ReferenceIdeal.S4x32 ![0, 1] Cert.ReferenceIdeal.Gen.bcast_S1x32_S4x32_0_1 w := by
  funext j
  let k : Cert.KernelIdeal.S1x32.Idx := fun a => match a with
    | ⟨0, _⟩ => ⟨0, Nat.one_pos⟩
    | ⟨1, _⟩ => ⟨(j 1).val, (j 1).isLt⟩
  refine (broadcastTo_apply w _ j k fun a => ?_).trans (broadcastInDim_apply _ _ w j k fun a => ?_).symm
  · match a with
    | ⟨0, _⟩ => show 0 = if (1 : Nat) = 1 then 0 else (j 0).val; rw [if_pos rfl]
    | ⟨1, _⟩ => show (j 1).val = if (32 : Nat) = 1 then 0 else (j 1).val; rw [if_neg (by decide)]
  · match a with
    | ⟨0, _⟩ => show 0 = if (1 : Nat) = 1 then 0 else (j 0).val; rw [if_pos rfl]
    | ⟨1, _⟩ => show (j 1).val = if (32 : Nat) = 1 then 0 else (j 1).val; rw [if_neg (by decide)]

/-- A vector [32] laid out as one row, by the kernel's cast or by the reference's broadcast. -/
theorem row_of_vector (v : Cert.KernelIdeal.S32.Idx → α) :
    shapeCast Cert.KernelIdeal.S1x32 v Cert.KernelIdeal.Gen.shapeCasts_S32_S1x32
      = broadcastInDim Cert.ReferenceIdeal.S1x32 ![1] Cert.ReferenceIdeal.Gen.bcast_S32_S1x32_1 v :=
  Cert.Lib.reshape_row_eq_broadcastInDim v _ _

end Layout

/-! ## The two products: a product with a transposed right factor is the product with the transpose -/

section Stages

open Cert.ReferenceIdeal.Read

variable (x1 : FVec Ideal Cert.KernelIdeal.S4x64 .f32) (x2 : FVec Ideal Cert.KernelIdeal.S32x64 .f32) (x3 : FVec Ideal Cert.KernelIdeal.S32 .f32)
  (x4 : FVec Ideal Cert.KernelIdeal.S32x32 .f32) (x5 x6 : FVec Ideal Cert.KernelIdeal.S32 .f32)

/-- `∑ t, x (n, t) · Wp (k, t)` on both sides. -/
theorem product_proj :
    matmul Cert.KernelIdeal.dot_S4x64_S32x64_S4x32_1_1_0_0_n_n (some .fp32) x1 x2 (constant Cert.KernelIdeal.S4x32 .f32 0x00000000#32)
      = (val_main_v1 (F := Ideal) x1 x2) := by
  funext i
  obtain ⟨p, q, rfl⟩ : ∃ (p : Fin 4) (q : Fin 32), i = ix2 p q := ⟨i 0, i 1, eq_ix2 i⟩
  rw [Cert.LibDotNT.matmul_zero_apply _ rfl rfl rfl rfl rfl rfl, val_main_v1_apply]
  refine Finset.sum_congr rfl fun k _ => ?_
  rw [val_main_v0_apply]
  refine congrArg₂ (· * ·) (congrArg x1 ?_) (congrArg x2 ?_) <;>
    exact funext fun a => Fin.ext (by match a with | ⟨0, _⟩ => rfl | ⟨1, _⟩ => rfl)

/-- `∑ k, proj (n, k) · Wc (c, k)` on both sides. -/
theorem product_mix :
    matmul (F := Ideal) (φ₁ := .f32) (φ₂ := .f32) Cert.KernelIdeal.dot_S4x32_S32x32_S4x32_1_1_0_0_n_n (some .fp32) (val_main_v4 (F := Ideal) x1 x2 x3) x4 (constant Cert.KernelIdeal.S4x32 .f32 0x00000000#32)
      = (val_main_v6 (F := Ideal) x1 x2 x3 x4) := by
  funext i
  obtain ⟨p, q, rfl⟩ : ∃ (p : Fin 4) (q : Fin 32), i = ix2 p q := ⟨i 0, i 1, eq_ix2 i⟩
  rw [Cert.LibDotNT.matmul_zero_apply _ rfl rfl rfl rfl rfl rfl, val_main_v6_apply]
  refine Finset.sum_congr rfl fun k _ => ?_
  rw [val_main_v5_apply]
  refine congrArg₂ (· * ·) (congrArg (val_main_v4 (F := Ideal) x1 x2 x3) ?_) (congrArg x4 ?_) <;>
    exact funext fun a => Fin.ext (by match a with | ⟨0, _⟩ => rfl | ⟨1, _⟩ => rfl)

/-! ## The sum down the four rows -/

/-- A sum over the row axis of a [4, 32] array: the kernel's reduction from the zero accumulator is the host's
    reduction from the zero initial value. -/
theorem column_sum (y : FVec Ideal Cert.KernelIdeal.S4x32 .f32) (h : Cert.KernelIdeal.S4x32.Reduces [0] Cert.KernelIdeal.S32) (hφ : FKind.Formats .f32)
    (hacc : (0x00000000#32 : BitVec 32) = FKind.add.neutral .f32 hφ) :
    multiReduction .add [0] Cert.KernelIdeal.S32 y 0x00000000#32 h hφ hacc
      = Host.reduceAdd y (constant Cert.ReferenceIdeal.S_ .f32 0x00000000#32) Cert.ReferenceIdeal.Gen.reducesTo_S4x32_S32_d0 Cert.ReferenceIdeal.Gen.h_S_ := by
  funext j
  rw [Ideal.multiReduction_add_single]
  simp only [Host.reduceAdd, Ideal.hostReduceAdd_def]
  rw [Ideal.hostReduceAdd_single Cert.ReferenceIdeal.Gen.reducesTo_S4x32_S32_d0 h]
  show _ = Ideal.ofBits .f32 0x00000000#32 + _
  rw [Ideal.ofBits_zero_f32, zero_add]

/-! ## The stages, in the kernel's order -/

section
variable (hc : Cert.KernelIdeal.S32.ShapeCasts Cert.KernelIdeal.S1x32) (hb : Cert.KernelIdeal.S1x32.Broadcasts Cert.KernelIdeal.S4x32)
  (h : Cert.KernelIdeal.S4x32.Reduces [0] Cert.KernelIdeal.S32) (hφ : FKind.Formats .f32) (hacc : (0x00000000#32 : BitVec 32) = FKind.add.neutral .f32 hφ)

theorem stage_bias : broadcastTo (s := Cert.KernelIdeal.S1x32) (α := Ideal .f32) Cert.KernelIdeal.S4x32 (shapeCast (s := Cert.KernelIdeal.S32) (α := Ideal .f32) Cert.KernelIdeal.S1x32 x3 hc) hb = (val_main_v3 (F := Ideal) x3) := by
  rw [row_of_vector x3]; exact rows_of_row _

theorem stage_proj : addf (F := Ideal) (s := Cert.KernelIdeal.S4x32) (φ := .f32) (val_main_v1 (F := Ideal) x1 x2) (val_main_v3 (F := Ideal) x3) = (val_main_v4 (F := Ideal) x1 x2 x3) := rfl

theorem stage_sum : multiReduction (F := Ideal) (s := Cert.KernelIdeal.S4x32) (φ := .f32) .add [0] Cert.KernelIdeal.S32 (val_main_v6 (F := Ideal) x1 x2 x3 x4) 0x00000000#32 h hφ hacc = (val_main_v7 (F := Ideal) x1 x2 x3 x4) :=
  column_sum _ h hφ hacc

/-- The mean as a one-row matrix: the division by four commutes with laying the vector out as a row. -/
theorem stage_mean : divf (F := Ideal) (s := Cert.KernelIdeal.S1x32) (φ := .f32) (shapeCast (s := Cert.KernelIdeal.S32) (α := Ideal .f32) Cert.KernelIdeal.S1x32 (val_main_v7 (F := Ideal) x1 x2 x3 x4) hc) (broadcast (α := Ideal .f32) Cert.KernelIdeal.S1x32 (FloatOps.ofBits (F := Ideal) .f32 0x40800000#32)) = (val_main_v10 (F := Ideal) x1 x2 x3 x4) := by
  rw [row_of_vector]; exact funext fun j => rfl

theorem stage_mean_rows : broadcastTo (s := Cert.KernelIdeal.S1x32) (α := Ideal .f32) Cert.KernelIdeal.S4x32 (val_main_v10 (F := Ideal) x1 x2 x3 x4) hb = (val_main_v11 (F := Ideal) x1 x2 x3 x4) :=
  rows_of_row _

theorem stage_centred : subf (F := Ideal) (s := Cert.KernelIdeal.S4x32) (φ := .f32) (val_main_v6 (F := Ideal) x1 x2 x3 x4) (val_main_v11 (F := Ideal) x1 x2 x3 x4) = (val_main_v12 (F := Ideal) x1 x2 x3 x4) := rfl

theorem stage_square : mulf (F := Ideal) (s := Cert.KernelIdeal.S4x32) (φ := .f32) (val_main_v12 (F := Ideal) x1 x2 x3 x4) (val_main_v12 (F := Ideal) x1 x2 x3 x4) = (val_main_v13 (F := Ideal) x1 x2 x3 x4) := rfl

theorem stage_sqsum : multiReduction (F := Ideal) (s := Cert.KernelIdeal.S4x32) (φ := .f32) .add [0] Cert.KernelIdeal.S32 (val_main_v13 (F := Ideal) x1 x2 x3 x4) 0x00000000#32 h hφ hacc = (val_main_v14 (F := Ideal) x1 x2 x3 x4) :=
  column_sum _ h hφ hacc

/-- The scale `(var + ε)^(−1/2)` as a one-row matrix: dividing by four, adding ε and the reciprocal square root are
    taken entry by entry, so they commute with laying the vector out as a row. -/
theorem stage_scale :
    rsqrt (F := Ideal) (s := Cert.KernelIdeal.S1x32) (φ := .f32) (addf (F := Ideal) (s := Cert.KernelIdeal.S1x32) (φ := .f32) (divf (F := Ideal) (s := Cert.KernelIdeal.S1x32) (φ := .f32) (shapeCast (s := Cert.KernelIdeal.S32) (α := Ideal .f32) Cert.KernelIdeal.S1x32 (val_main_v14 (F := Ideal) x1 x2 x3 x4) hc) (broadcast (α := Ideal .f32) Cert.KernelIdeal.S1x32 (FloatOps.ofBits (F := Ideal) .f32 0x40800000#32))) (broadcast (α := Ideal .f32) Cert.KernelIdeal.S1x32 (FloatOps.ofBits (F := Ideal) .f32 0x3727C5AC#32)))
      = (val_main_v23 (F := Ideal) x1 x2 x3 x4) := by
  rw [row_of_vector]; exact funext fun j => rfl

theorem stage_scale_rows : broadcastTo (s := Cert.KernelIdeal.S1x32) (α := Ideal .f32) Cert.KernelIdeal.S4x32 (val_main_v23 (F := Ideal) x1 x2 x3 x4) hb = (val_main_v24 (F := Ideal) x1 x2 x3 x4) :=
  rows_of_row _

/-- The centred value is computed twice by both programs; the second copy is the first. -/
theorem stage_normed : mulf (F := Ideal) (s := Cert.KernelIdeal.S4x32) (φ := .f32) (val_main_v12 (F := Ideal) x1 x2 x3 x4) (val_main_v24 (F := Ideal) x1 x2 x3 x4) = (val_main_v25 (F := Ideal) x1 x2 x3 x4) := rfl

theorem stage_gamma : broadcastTo (s := Cert.KernelIdeal.S1x32) (α := Ideal .f32) Cert.KernelIdeal.S4x32 (shapeCast (s := Cert.KernelIdeal.S32) (α := Ideal .f32) Cert.KernelIdeal.S1x32 x5 hc) hb = (val_main_v27 (F := Ideal) x5) := by
  rw [row_of_vector x5]; exact rows_of_row _

theorem stage_scaled : mulf (F := Ideal) (s := Cert.KernelIdeal.S4x32) (φ := .f32) (val_main_v25 (F := Ideal) x1 x2 x3 x4) (val_main_v27 (F := Ideal) x5) = (val_main_v28 (F := Ideal) x1 x2 x3 x4 x5) := rfl

theorem stage_beta : broadcastTo (s := Cert.KernelIdeal.S1x32) (α := Ideal .f32) Cert.KernelIdeal.S4x32 (shapeCast (s := Cert.KernelIdeal.S32) (α := Ideal .f32) Cert.KernelIdeal.S1x32 x6 hc) hb = (val_main_v30 (F := Ideal) x6) := by
  rw [row_of_vector x6]; exact rows_of_row _

theorem stage_shifted : addf (F := Ideal) (s := Cert.KernelIdeal.S4x32) (φ := .f32) (val_main_v28 (F := Ideal) x1 x2 x3 x4 x5) (val_main_v30 (F := Ideal) x6) = (val_main_v31 (F := Ideal) x1 x2 x3 x4 x5 x6) := rfl

theorem stage_relu : maximumf (F := Ideal) (s := Cert.KernelIdeal.S4x32) (φ := .f32) (val_main_v31 (F := Ideal) x1 x2 x3 x4 x5 x6) (broadcast (α := Ideal .f32) Cert.KernelIdeal.S4x32 (FloatOps.ofBits (F := Ideal) .f32 0x00000000#32)) = (val_main_v32 (F := Ideal) x1 x2 x3 x4 x5 x6) :=
  funext fun j => rfl

end

set_option simprocs false in
/-- THE ACTIVATION: what the first kernel stores is the reference's activation array. -/
theorem act_eq : Cert.KernelIdeal.Gen.k0_pay1 (F := Ideal) x1 x2 x3 x4 x5 x6 = (val_main_v32 (F := Ideal) x1 x2 x3 x4 x5 x6) := by
  unfold Cert.KernelIdeal.Gen.k0_pay1
  simp only [product_proj x1 x2, stage_bias x3, stage_proj x1 x2 x3, product_mix x1 x2 x3 x4, stage_sum x1 x2 x3 x4 Cert.KernelIdeal.Gen.reduces_S4x32_S32 (.inl rfl) rfl,
    stage_mean x1 x2 x3 x4, stage_mean_rows x1 x2 x3 x4, stage_centred x1 x2 x3 x4, stage_square x1 x2 x3 x4,
    stage_sqsum x1 x2 x3 x4 Cert.KernelIdeal.Gen.reduces_S4x32_S32 (.inl rfl) rfl, stage_scale x1 x2 x3 x4, stage_scale_rows x1 x2 x3 x4, stage_normed x1 x2 x3 x4,
    stage_gamma x5, stage_scaled x1 x2 x3 x4 x5, stage_beta x6, stage_shifted x1 x2 x3 x4 x5 x6,
    stage_relu x1 x2 x3 x4 x5 x6]

end Stages

end Cert.Act

end
-- ==== Proof.OutValue.lean ====
/-
  What the kernel's program leaves in its result array, as ONE function of the argument arrays.

  The first region has one grid point and every window is its whole array, so its output array ends at the body's
  value of the whole input arrays: the activation table [4, 32]. The host reshapes the table to [4, 32, 1, 1, 1]. The
  second region walks 4 × 24 points; at point (n, d) its output block [1, 64, 4, 96, 96] at block index
  (n, 0, d, 0, 0) takes, on channels 0 … 31, the volume's block at the same index and, on channels 32 … 63, entry
  (n, channel − 32) of the table whatever the spatial position. Every point's block is therefore the restriction of
  one array: the volume joined, along the channel axis, with the table broadcast over the three spatial axes. The
  blocks tile the array, so the array ends at that join.
-/
import proofs.«135928_j54065048322100_1_alg».proof.Proof.KernelRun
import proofs.«135928_j54065048322100_1_alg».proof.Proof.Gen.ReferenceIdeal
import Idealize.ShloMosaic.Lib.Pipeline.Value
import Idealize.ShloMosaic.Lib.ValueIdx
import Idealize.ShloMosaic.Lib.StableHlo.Run

set_option maxRecDepth 16384

noncomputable section

namespace Cert.KernelIdeal.Out

open Cert.KernelIdeal Cert.KernelIdeal.Gen
open Idealize.ShloMosaic Idealize.ShloMosaic.TcCoe Idealize.SL.Sem
open Idealize.ShloMosaic.Pipeline (Dat)

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros5 : (![0, 0, 0, 0, 0] : Fin 5 → Nat) = fun _ => 0 := funext fun a => by fin_cases a <;> rfl

/-! ## The join along the channel axis -/

section Join
variable {α : Type}

/-- The volume [4, 32, 96, 96, 96] followed, along the channel axis, by a [4, 32, 1, 1, 1] table repeated over the
    three spatial axes: a [4, 64, 96, 96, 96] array. -/
def joined (vol : Cert.ReferenceIdeal.S4x32x96x96x96.Idx → α) (tab : Cert.ReferenceIdeal.S4x32x1x1x1.Idx → α) : Cert.ReferenceIdeal.S4x64x96x96x96.Idx → α :=
  concatenate Cert.ReferenceIdeal.S4x64x96x96x96 1
    [⟨Cert.ReferenceIdeal.S4x32x96x96x96, vol⟩,
     ⟨Cert.ReferenceIdeal.S4x32x96x96x96, broadcastInDim Cert.ReferenceIdeal.S4x32x96x96x96 ![0, 1, 2, 3, 4] Cert.ReferenceIdeal.Gen.bcast_S4x32x1x1x1_S4x32x96x96x96_0_1_2_3_4 tab⟩]
    Cert.ReferenceIdeal.Gen.concatenates_S4x32x96x96x96_S4x32x96x96x96_S4x64x96x96x96_d1

/-- On the first 32 channels the join is the volume at the same coordinates. -/
theorem joined_low (vol : Cert.ReferenceIdeal.S4x32x96x96x96.Idx → α) (tab : Cert.ReferenceIdeal.S4x32x1x1x1.Idx → α)
    (i : Cert.ReferenceIdeal.S4x64x96x96x96.Idx) (k : Cert.ReferenceIdeal.S4x32x96x96x96.Idx) (hk : ∀ b : Fin 5, (k b).val = (i b).val) :
    joined vol tab i = vol k := by
  unfold joined
  exact concatenate_pair_apply_left (t := Cert.ReferenceIdeal.S4x64x96x96x96) (s₁ := Cert.ReferenceIdeal.S4x32x96x96x96)
    (s₂ := Cert.ReferenceIdeal.S4x32x96x96x96) (1 : Fin 5) vol _ _ i rfl k hk

/-- On the last 32 channels it is the table at (n, channel − 32). -/
theorem joined_high (vol : Cert.ReferenceIdeal.S4x32x96x96x96.Idx → α) (tab : Cert.ReferenceIdeal.S4x32x1x1x1.Idx → α)
    (i : Cert.ReferenceIdeal.S4x64x96x96x96.Idx) (k : Cert.ReferenceIdeal.S4x32x1x1x1.Idx) (h0 : (k 0).val = (i 0).val)
    (h1 : (k 1).val + 32 = (i 1).val) : joined vol tab i = tab k := by
  have hi1 : (i 1).val < 64 := (i 1).isLt
  have hk2 : (k 2).val = 0 := by have : (k 2).val < 1 := (k 2).isLt; omega
  have hk3 : (k 3).val = 0 := by have : (k 3).val < 1 := (k 3).isLt; omega
  have hk4 : (k 4).val = 0 := by have : (k 4).val < 1 := (k 4).isLt; omega
  let i' : Cert.ReferenceIdeal.S4x32x96x96x96.Idx := fun b => match b with
    | ⟨0, _⟩ => ⟨(i 0).val, (i 0).isLt⟩
    | ⟨1, _⟩ => ⟨(i 1).val - 32, by show (i 1).val - 32 < 32; omega⟩
    | ⟨2, _⟩ => ⟨(i 2).val, (i 2).isLt⟩
    | ⟨3, _⟩ => ⟨(i 3).val, (i 3).isLt⟩
    | ⟨4, _⟩ => ⟨(i 4).val, (i 4).isLt⟩
  unfold joined
  refine (concatenate_pair_apply_right (t := Cert.ReferenceIdeal.S4x64x96x96x96) (s₁ := Cert.ReferenceIdeal.S4x32x96x96x96)
    (s₂ := Cert.ReferenceIdeal.S4x32x96x96x96) (1 : Fin 5) vol _ _ i rfl rfl i' (fun b hb => ?_) ?_).trans
    (broadcastInDim_apply _ _ tab i' k fun a => ?_)
  · match b with
    | ⟨0, _⟩ => rfl
    | ⟨1, _⟩ => exact absurd rfl hb
    | ⟨2, _⟩ => rfl
    | ⟨3, _⟩ => rfl
    | ⟨4, _⟩ => rfl
  · show (i 1).val - 32 + 32 = (i 1).val; omega
  · match a with
    | ⟨0, _⟩ => show (k 0).val = if (4 : Nat) = 1 then 0 else (i 0).val; rw [if_neg (by decide)]; exact h0
    | ⟨1, _⟩ => show (k 1).val = if (32 : Nat) = 1 then 0 else (i 1).val - 32; rw [if_neg (by decide)]; omega
    | ⟨2, _⟩ => show (k 2).val = if (1 : Nat) = 1 then 0 else (i 2).val; rw [if_pos rfl]; exact hk2
    | ⟨3, _⟩ => show (k 3).val = if (1 : Nat) = 1 then 0 else (i 3).val; rw [if_pos rfl]; exact hk3
    | ⟨4, _⟩ => show (k 4).val = if (1 : Nat) = 1 then 0 else (i 4).val; rw [if_pos rfl]; exact hk4

end Join

/-! ## The first region: one point, every window its whole array -/

section Regions
variable (V : (c : Dev nD) → (b : Ref sig .tc) → Buf (Elt F) ((c : Thread nD τ).loc b))

/-- Every window of the first region sits at block index zero on every axis. -/
theorem origin0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = 0 ∧ win0_6.index t (1 : Fin 2) = 0 :=
  (by decide +kernel : ∀ t : Fin grid0.N, _)

/-- So each input block is the whole input array. -/
theorem whole0_0 (c : Dev nD) (t : Fin cfg0.N) : iblk0 V c 0 t = V c main_arg1 := by
  obtain ⟨e0, e1, -⟩ := origin0 t
  funext y
  show V c main_arg1 (((cfg0.win 0).blk t).view.emb y) = V c main_arg1 y
  refine congrArg _ (funext fun a => Fin.ext ?_)
  match a with
  | ⟨0, _⟩ => show win0_0.index t (0 : Fin 2) * 4 + 1 * (y 0).val = (y 0).val; omega
  | ⟨1, _⟩ => show win0_0.index t (1 : Fin 2) * 64 + 1 * (y 1).val = (y 1).val; omega
theorem whole0_1 (c : Dev nD) (t : Fin cfg0.N) : iblk0 V c 1 t = V c main_arg2 := by
  obtain ⟨-, -, e0, e1, -⟩ := origin0 t
  funext y
  show V c main_arg2 (((cfg0.win 1).blk t).view.emb y) = V c main_arg2 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega
theorem whole0_2 (c : Dev nD) (t : Fin cfg0.N) : iblk0 V c 2 t = V c main_arg3 := by
  obtain ⟨-, -, -, -, e0, -⟩ := origin0 t
  funext y
  show V c main_arg3 (((cfg0.win 2).blk t).view.emb y) = V c main_arg3 y
  refine congrArg _ (funext fun a => Fin.ext ?_)
  match a with
  | ⟨0, _⟩ => show win0_2.index t (0 : Fin 1) * 32 + 1 * (y 0).val = (y 0).val; omega
theorem whole0_3 (c : Dev nD) (t : Fin cfg0.N) : iblk0 V c 3 t = V c main_arg4 := by
  obtain ⟨-, -, -, -, -, e0, e1, -⟩ := origin0 t
  funext y
  show V c main_arg4 (((cfg0.win 3).blk t).view.emb y) = V c main_arg4 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega
theorem whole0_4 (c : Dev nD) (t : Fin cfg0.N) : iblk0 V c 4 t = V c main_arg5 := by
  obtain ⟨-, -, -, -, -, -, -, e0, -⟩ := origin0 t
  funext y
  show V c main_arg5 (((cfg0.win 4).blk t).view.emb y) = V c main_arg5 y
  refine congrArg _ (funext fun a => Fin.ext ?_)
  match a with
  | ⟨0, _⟩ => show win0_4.index t (0 : Fin 1) * 32 + 1 * (y 0).val = (y 0).val; omega
theorem whole0_5 (c : Dev nD) (t : Fin cfg0.N) : iblk0 V c 5 t = V c main_arg6 := by
  obtain ⟨-, -, -, -, -, -, -, -, e0, -⟩ := origin0 t
  funext y
  show V c main_arg6 (((cfg0.win 5).blk t).view.emb y) = V c main_arg6 y
  refine congrArg _ (funext fun a => Fin.ext ?_)
  match a with
  | ⟨0, _⟩ => show win0_5.index t (0 : Fin 1) * 32 + 1 * (y 0).val = (y 0).val; omega

/-- The activation table of the arrays the first region is entered with: the body's value of the whole inputs. -/
abbrev table (c : Dev nD) : Vec F S4x32 .f32 :=
  k0_pay1 (V c main_arg1) (V c main_arg2) (V c main_arg3) (V c main_arg4) (V c main_arg5) (V c main_arg6)

/-- What the one point writes back is the whole table. -/
theorem flushed0_eq (c : Dev nD) (t : Fin cfg0.N) :
    (dat0 V c).flushed 6 t = ((cfg0.win 6).blk t).view.read (Elt F) (table V c) := by
  show (cfg0.win 6).cut (grid0.coords t) ((dat0 V c).after 6 t) = _
  rw [after0_6]
  unfold out0_6
  rw [View.canon_unit_zero zeros2]
  simp only [View.ld_unit_zero (S := S4x64) zeros2, View.ld_unit_zero (S := S32x64) zeros2,
    View.ld_unit_zero (S := S32) zeros1, View.ld_unit_zero (S := S32x32) zeros2]
  rw [whole0_0 V c t, whole0_1 V c t, whole0_2 V c t, whole0_3 V c t, whole0_4 V c t, whole0_5 V c t]
  obtain ⟨-, -, -, -, -, -, -, -, -, e0, e1⟩ := origin0 t
  funext y
  show table V c y = table V c (((cfg0.win 6).blk t).view.emb y)
  refine congrArg _ (funext fun a => Fin.ext ?_)
  match a with
  | ⟨0, _⟩ => show (y 0).val = win0_6.index t (0 : Fin 2) * 4 + 1 * (y 0).val; omega
  | ⟨1, _⟩ => show (y 1).val = win0_6.index t (1 : Fin 2) * 32 + 1 * (y 1).val; omega

/-- An index of the table is in point `t`'s block iff each coordinate is in the block's range. -/
theorem mem_blk0 (t : Fin cfg0.N) (i : S4x32.Idx) :
    i ∈ ((cfg0.win 6).blk t).view.set ↔ ∀ a : Fin 2, win0_6.index t a * S4x32.size a ≤ (i a).val ∧ (i a).val < win0_6.index t a * S4x32.size a + S4x32.size a := by
  show i ∈ ((View.whole main_v0).slice (win0_6.rect t)).set ↔ _
  rw [View.set_slice_whole, Rect.mem_set_unit]
  exact Iff.rfl

/-- THE TABLE after the first region. -/
theorem final0 (c : Dev nD) : (dat0 V c).arrAt 6 cfg0.N = table V c :=
  (dat0 V c).arrAt_eq_of_cover 6 (table V c) (fun t _ => flushed0_eq V c t) fun i => by
    refine ⟨t0_0, flush0_6 t0_0, ?_⟩
    rw [mem_blk0]
    obtain ⟨-, -, -, -, -, -, -, -, -, e0, e1⟩ := origin0 t0_0
    have h0 : (i 0).val < 4 := (i 0).isLt
    have h1 : (i 1).val < 32 := (i 1).isLt
    intro a
    match a with
    | ⟨0, _⟩ => show win0_6.index t0_0 (0 : Fin 2) * 4 ≤ (i 0).val ∧ (i 0).val < win0_6.index t0_0 (0 : Fin 2) * 4 + 4; omega
    | ⟨1, _⟩ => show win0_6.index t0_0 (1 : Fin 2) * 32 ≤ (i 1).val ∧ (i 1).val < win0_6.index t0_0 (1 : Fin 2) * 32 + 32; omega

end Regions

/-! ## The second region: 4 × 24 points, the output block the volume's block beside the table's row -/

section Region1
variable (V : (c : Dev nD) → (b : Ref sig .tc) → Buf (Elt F) ((c : Thread nD τ).loc b))

/-- The printed index maps over the grid: the volume's block and the table's block move with the output's. -/
theorem index1 : ∀ t : Fin cfg1.N,
    win1_0.index t (0 : Fin 5) = win1_2.index t (0 : Fin 5) ∧ win1_0.index t (1 : Fin 5) = 0
    ∧ win1_0.index t (2 : Fin 5) = win1_2.index t (2 : Fin 5) ∧ win1_0.index t (3 : Fin 5) = 0 ∧ win1_0.index t (4 : Fin 5) = 0
    ∧ win1_1.index t (0 : Fin 5) = win1_2.index t (0 : Fin 5) ∧ win1_1.index t (1 : Fin 5) = 0
    ∧ win1_1.index t (2 : Fin 5) = 0 ∧ win1_1.index t (3 : Fin 5) = 0 ∧ win1_1.index t (4 : Fin 5) = 0
    ∧ win1_2.index t (1 : Fin 5) = 0 ∧ win1_2.index t (3 : Fin 5) = 0 ∧ win1_2.index t (4 : Fin 5) = 0
    ∧ win1_2.index t (0 : Fin 5) ≤ 3 ∧ win1_2.index t (2 : Fin 5) ≤ 23 :=
  (by decide +kernel : ∀ t : Fin grid1.N, _)

/-- Every (sample, depth tile) pair is some point's output block. -/
theorem index1_onto : ∀ (q0 : Fin 4) (q2 : Fin 24), ∃ t : Fin cfg1.N, win1_2.index t = ![q0.val, 0, q2.val, 0, 0] :=
  (by decide +kernel : ∀ (q0 : Fin 4) (q2 : Fin 24), ∃ t : Fin grid1.N, win1_2.index t = ![q0.val, 0, q2.val, 0, 0])

/-- The join of the arrays the second region is entered with. -/
abbrev whole1 (c : Dev nD) : S4x64x96x96x96.Idx → Elt F .f32 := joined (V c main_arg0) (V c main_v1)

/-- The store of the volume's block: channels 0 … 31 of the output block are the join under the block. -/
theorem piece_volume (c : Dev nD) (t : Fin cfg1.N) (x : S1x32x4x96x96.Idx) :
    View.ld (iblk1 V c 0 t) r1_0 x = whole1 V c (((cfg1.win 2).blk t).view.emb (r1_1.emb x)) := by
  obtain ⟨e0, e1, e2, e3, e4, -, -, -, -, -, f1, f3, f4, -, -⟩ := index1 t
  rw [View.ld_unit_zero (S := S1x32x4x96x96) zeros5]
  show V c main_arg0 (((cfg1.win 0).blk t).view.emb x) = _
  refine (joined_low _ _ _ _ fun b => ?_).symm
  have hx1 : (x 1).val < 32 := (x 1).isLt
  match b with
  | ⟨0, _⟩ => show win1_0.index t (0 : Fin 5) * 1 + 1 * (x 0).val = win1_2.index t (0 : Fin 5) * 1 + 1 * (0 + 1 * (x 0).val); omega
  | ⟨1, _⟩ => show win1_0.index t (1 : Fin 5) * 32 + 1 * (x 1).val = win1_2.index t (1 : Fin 5) * 64 + 1 * (0 + 1 * (x 1).val); omega
  | ⟨2, _⟩ => show win1_0.index t (2 : Fin 5) * 4 + 1 * (x 2).val = win1_2.index t (2 : Fin 5) * 4 + 1 * (0 + 1 * (x 2).val); omega
  | ⟨3, _⟩ => show win1_0.index t (3 : Fin 5) * 96 + 1 * (x 3).val = win1_2.index t (3 : Fin 5) * 96 + 1 * (0 + 1 * (x 3).val); omega
  | ⟨4, _⟩ => show win1_0.index t (4 : Fin 5) * 96 + 1 * (x 4).val = win1_2.index t (4 : Fin 5) * 96 + 1 * (0 + 1 * (x 4).val); omega

/-- The store of the broadcast row: channels 32 … 63 of the output block are the join under the block. -/
theorem piece_table (c : Dev nD) (t : Fin cfg1.N) (x : S1x32x4x96x96.Idx) :
    k1_pay1 (View.ld (iblk1 V c 1 t) r1_2) x = whole1 V c (((cfg1.win 2).blk t).view.emb (r1_3.emb x)) := by
  obtain ⟨-, -, -, -, -, e0, e1, e2, e3, e4, f1, f3, f4, -, -⟩ := index1 t
  unfold k1_pay1
  rw [shapeCast_self, shapeCast_self, View.ld_unit_zero (S := S1x32x1x1x1) zeros5]
  have hx0 : (x 0).val = 0 := by have : (x 0).val < 1 := (x 0).isLt; omega
  have hx1 : (x 1).val < 32 := (x 1).isLt
  let k : S1x32x1x1x1.Idx := fun a => match a with
    | ⟨0, _⟩ => ⟨0, Nat.one_pos⟩
    | ⟨1, _⟩ => ⟨(x 1).val, hx1⟩
    | ⟨2, _⟩ => ⟨0, Nat.one_pos⟩
    | ⟨3, _⟩ => ⟨0, Nat.one_pos⟩
    | ⟨4, _⟩ => ⟨0, Nat.one_pos⟩
  refine (broadcastTo_apply _ _ x k fun a => ?_).trans ?_
  · match a with
    | ⟨0, _⟩ => show 0 = if (1 : Nat) = 1 then 0 else (x 0).val; rw [if_pos rfl]
    | ⟨1, _⟩ => show (x 1).val = if (32 : Nat) = 1 then 0 else (x 1).val; rw [if_neg (by decide)]
    | ⟨2, _⟩ => show 0 = if (1 : Nat) = 1 then 0 else (x 2).val; rw [if_pos rfl]
    | ⟨3, _⟩ => show 0 = if (1 : Nat) = 1 then 0 else (x 3).val; rw [if_pos rfl]
    | ⟨4, _⟩ => show 0 = if (1 : Nat) = 1 then 0 else (x 4).val; rw [if_pos rfl]
  · show V c main_v1 (((cfg1.win 1).blk t).view.emb k) = _
    refine (joined_high _ _ _ _ ?_ ?_).symm
    · show win1_1.index t (0 : Fin 5) * 1 + 1 * 0 = win1_2.index t (0 : Fin 5) * 1 + 1 * (0 + 1 * (x 0).val); omega
    · show win1_1.index t (1 : Fin 5) * 32 + 1 * (x 1).val + 32 = win1_2.index t (1 : Fin 5) * 64 + 1 * (32 + 1 * (x 1).val); omega

/-- WHAT POINT `t` WRITES BACK is block `t` of the join. -/
theorem flushed1_eq (c : Dev nD) (t : Fin cfg1.N) :
    (dat1 V c).flushed 2 t = ((cfg1.win 2).blk t).view.read (Elt F) (whole1 V c) := by
  show (cfg1.win 2).cut (grid1.coords t) ((dat1 V c).after 2 t) = _
  rw [after1_2]
  unfold out1_2
  funext y
  refine View.canon_apply_of_pieces (fun y => whole1 V c (((cfg1.win 2).blk t).view.emb y)) _ (fun p hp x => ?_) y (cover1_2 _ _ y)
  rcases List.mem_cons.mp hp with rfl | hp
  · exact piece_table V c t x
  · obtain rfl := List.mem_singleton.mp hp
    exact piece_volume V c t x

/-- An index of the result array is in point `t`'s block iff each coordinate is in the block's range. -/
theorem mem_blk1 (t : Fin cfg1.N) (i : S4x64x96x96x96.Idx) :
    i ∈ ((cfg1.win 2).blk t).view.set ↔ ∀ a : Fin 5, win1_2.index t a * S1x64x4x96x96.size a ≤ (i a).val ∧ (i a).val < win1_2.index t a * S1x64x4x96x96.size a + S1x64x4x96x96.size a := by
  show i ∈ ((View.whole main_v2).slice (win1_2.rect t)).set ↔ _
  rw [View.set_slice_whole, Rect.mem_set_unit]
  exact Iff.rfl

/-- THE RESULT ARRAY after the second region: the join. -/
theorem final1 (c : Dev nD) : (dat1 V c).arrAt 2 cfg1.N = whole1 V c :=
  (dat1 V c).arrAt_eq_of_cover 2 (whole1 V c) (fun t _ => flushed1_eq V c t) fun i => by
    have h0 : (i 0).val < 4 := (i 0).isLt
    have h1 : (i 1).val < 64 := (i 1).isLt
    have h2 : (i 2).val < 96 := (i 2).isLt
    have h3 : (i 3).val < 96 := (i 3).isLt
    have h4 : (i 4).val < 96 := (i 4).isLt
    obtain ⟨t, ht⟩ := index1_onto ⟨(i 0).val, h0⟩ ⟨(i 2).val / 4, by omega⟩
    have q0 : win1_2.index t (0 : Fin 5) = (i 0).val := congrFun ht 0
    have q1 : win1_2.index t (1 : Fin 5) = 0 := congrFun ht 1
    have q2 : win1_2.index t (2 : Fin 5) = (i 2).val / 4 := congrFun ht 2
    have q3 : win1_2.index t (3 : Fin 5) = 0 := congrFun ht 3
    have q4 : win1_2.index t (4 : Fin 5) = 0 := congrFun ht 4
    refine ⟨t, flush1_2 t, ?_⟩
    rw [mem_blk1]
    intro a
    match a with
    | ⟨0, _⟩ => show win1_2.index t (0 : Fin 5) * 1 ≤ (i 0).val ∧ (i 0).val < win1_2.index t (0 : Fin 5) * 1 + 1; omega
    | ⟨1, _⟩ => show win1_2.index t (1 : Fin 5) * 64 ≤ (i 1).val ∧ (i 1).val < win1_2.index t (1 : Fin 5) * 64 + 64; omega
    | ⟨2, _⟩ => show win1_2.index t (2 : Fin 5) * 4 ≤ (i 2).val ∧ (i 2).val < win1_2.index t (2 : Fin 5) * 4 + 4; omega
    | ⟨3, _⟩ => show win1_2.index t (3 : Fin 5) * 96 ≤ (i 3).val ∧ (i 3).val < win1_2.index t (3 : Fin 5) * 96 + 96; omega
    | ⟨4, _⟩ => show win1_2.index t (4 : Fin 5) * 96 ≤ (i 4).val ∧ (i 4).val < win1_2.index t (4 : Fin 5) * 96 + 96; omega

end Region1

/-! ## Through the run: the table reaches the second region reshaped, the volume as launched -/

section Run
variable (m : (ℓ : Loc nD τ sig) → Buf (Elt F) ℓ) (ρ : Dev nD → PrngReg)

/-- The activation table of the launch contents. -/
abbrev launchTable (c : Dev nD) : Vec F S4x32 .f32 :=
  k0_pay1 (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The first region leaves the table in `main_v0`. -/
theorem exit_table (c : Dev nD) : W1 m ρ c (Proc.devRef .tc main_v0) = launchTable m c :=
  (W1_arr m ρ c 6).trans (final0 (V0 m ρ) c)

/-- The host reshape hands the second region the table as [4, 32, 1, 1, 1]. -/
theorem entry_table (c : Dev nD) :
    V2 m ρ c main_v1 = shapeCast S4x32x1x1x1 (launchTable m c) shapeCasts_S4x32_S4x32x1x1x1 := by
  have e := exit_table m ρ c
  show StableHlo.after hostOps1 (W1 m ρ c) (Proc.devRef .tc main_v1) = _
  after_results
  rw [e]
  rfl

/-- No region and no host operation before the second region writes the volume. -/
theorem entry_volume (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The result array at the end: the volume joined with the reshaped table. -/
theorem result_eq (c : Dev nD) :
    W3 m ρ c (Proc.devRef .tc main_v2)
      = joined (m ((c : Thread nD τ).loc main_arg0)) (shapeCast S4x32x1x1x1 (launchTable m c) shapeCasts_S4x32_S4x32x1x1x1) := by
  refine (W3_arr m ρ c 2).trans ((final1 (V2 m ρ) c).trans ?_)
  show joined (V2 m ρ c main_arg0) (V2 m ρ c main_v1) = _
  rw [entry_volume m ρ c, entry_table m ρ c]

/-- THE RUN of the kernel's program with its result named. -/
theorem run : θ_run defs (onTc (τ := τ) (main (F := F))) ⟨m, fun _ => 0, ρ⟩ (fun r => ∀ c : Dev nD,
      r.2.mem ((c.tc : Thread nD τ).loc main_v2)
        = joined (m ((c : Thread nD τ).loc main_arg0)) (shapeCast S4x32x1x1x1 (launchTable m c) shapeCasts_S4x32_S4x32x1x1x1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_out m ρ)

end Run

end Cert.KernelIdeal.Out

end
-- ==== Proof.Bridge.lean ====
/-
  The two results are one array.

  The kernel's program ends with the volume joined, along the channel axis, with its activation table reshaped to
  [4, 32, 1, 1, 1] and repeated over the three spatial axes; the reference ends with the volume joined with its
  activation array laid out as [4, 32, 1, 1, 1] by a broadcast and repeated the same way. The two tables are equal
  (the activation stages agree one by one), and reshaping a [4, 32] array to [4, 32, 1, 1, 1] is the same function as
  broadcasting it there along its two axes: entry (n, c, 0, 0, 0) of either is entry (n, c).
-/
import proofs.«135928_j54065048322100_1_alg».proof.Proof.ActBridge
import proofs.«135928_j54065048322100_1_alg».proof.Proof.OutValue

noncomputable section

namespace Cert.Act

open Idealize.ShloMosaic Idealize.ShloMosaic.ValueIdx

/-- A [4, 32] array as [4, 32, 1, 1, 1]: the kernel program's reshape is the reference's broadcast. -/
theorem unit_axes {α : Type} (a : Cert.KernelIdeal.S4x32.Idx → α) :
    shapeCast Cert.KernelIdeal.S4x32x1x1x1 a Cert.KernelIdeal.Gen.shapeCasts_S4x32_S4x32x1x1x1
      = broadcastInDim Cert.ReferenceIdeal.S4x32x1x1x1 ![0, 1] Cert.ReferenceIdeal.Gen.bcast_S4x32_S4x32x1x1x1_0_1 a := by
  funext j
  have h2 : (j 2).val = 0 := by have : (j 2).val < 1 := (j 2).isLt; omega
  have h3 : (j 3).val = 0 := by have : (j 3).val < 1 := (j 3).isLt; omega
  have h4 : (j 4).val = 0 := by have : (j 4).val < 1 := (j 4).isLt; omega
  let k : Cert.KernelIdeal.S4x32.Idx := fun b => match b with
    | ⟨0, _⟩ => ⟨(j 0).val, (j 0).isLt⟩
    | ⟨1, _⟩ => ⟨(j 1).val, (j 1).isLt⟩
  refine (shapeCast_apply a _ j k ?_).trans (broadcastInDim_apply _ _ a j k fun b => ?_).symm
  · rw [Shape.rowMajor_val_two, Shape.rowMajor_val_five]
    show (j 0).val * 32 + (j 1).val = ((((j 0).val * 32 + (j 1).val) * 1 + (j 2).val) * 1 + (j 3).val) * 1 + (j 4).val
    omega
  · match b with
    | ⟨0, _⟩ => show (j 0).val = if (4 : Nat) = 1 then 0 else (j 0).val; rw [if_neg (by decide)]
    | ⟨1, _⟩ => show (j 1).val = if (32 : Nat) = 1 then 0 else (j 1).val; rw [if_neg (by decide)]

open Cert.ReferenceIdeal.Read in
/-- THE BRIDGE: the reference's result, as a function of the seven argument arrays, is the kernel program's. -/
theorem result_eq (x0 : FVec Ideal Cert.KernelIdeal.S4x32x96x96x96 .f32) (x1 : FVec Ideal Cert.KernelIdeal.S4x64 .f32) (x2 : FVec Ideal Cert.KernelIdeal.S32x64 .f32)
    (x3 : FVec Ideal Cert.KernelIdeal.S32 .f32) (x4 : FVec Ideal Cert.KernelIdeal.S32x32 .f32) (x5 x6 : FVec Ideal Cert.KernelIdeal.S32 .f32) :
    val_main_v35 (F := Ideal) x0 x1 x2 x3 x4 x5 x6
      = Cert.KernelIdeal.Out.joined x0
          (shapeCast Cert.KernelIdeal.S4x32x1x1x1 (Cert.KernelIdeal.Gen.k0_pay1 (F := Ideal) x1 x2 x3 x4 x5 x6) Cert.KernelIdeal.Gen.shapeCasts_S4x32_S4x32x1x1x1) := by
  rw [act_eq, unit_axes]
  rfl

end Cert.Act

end
-- ==== Proof.lean ====
/-
  The kernel against its reference: a tabular projection, a channel mix, batch statistics over four samples, an
  affine map and a rectifier give a [4, 32] activation table, which is repeated over a 96³ volume and appended to the
  volume's 32 channels.

  Frames: the kernel's two programs are framed by their generated certificates; the reference's frame is its run with
  the result dropped. The idealization rewrote nothing, so there is nothing to preserve. Equality at the extended
  reals: the kernel's program ends at the volume joined with its table (the run of its two regions, read region by
  region), the reference at the volume joined with its activation array (its run); the tables agree stage by stage and
  the two layouts of a table over the unit axes are one function. No sum is regrouped, so the inputs' finiteness is
  not used.
-/
import proofs.«135928_j54065048322100_1_alg».proof.Defs
import proofs.«135928_j54065048322100_1_alg».proof.Proof.Gen.Kernel
import proofs.«135928_j54065048322100_1_alg».proof.Proof.Gen.Kernel.Skeleton
import proofs.«135928_j54065048322100_1_alg».proof.Proof.Gen.Kernel.Launch
import proofs.«135928_j54065048322100_1_alg».proof.Proof.Gen.Kernel.Points
import proofs.«135928_j54065048322100_1_alg».proof.Proof.Gen.Kernel.Frame
import proofs.«135928_j54065048322100_1_alg».proof.Proof.Gen.KernelIdeal
import proofs.«135928_j54065048322100_1_alg».proof.Proof.Gen.KernelIdeal.Skeleton
import proofs.«135928_j54065048322100_1_alg».proof.Proof.Gen.KernelIdeal.Launch
import proofs.«135928_j54065048322100_1_alg».proof.Proof.Gen.KernelIdeal.Points
import proofs.«135928_j54065048322100_1_alg».proof.Proof.Gen.KernelIdeal.Frame
import proofs.«135928_j54065048322100_1_alg».proof.Proof.Gen.ReferenceIdeal
import proofs.«135928_j54065048322100_1_alg».proof.Proof.Gen.Pre_finite_inputs
import proofs.«135928_j54065048322100_1_alg».proof.Proof.Gen.ReferenceIdeal.Run
import proofs.«135928_j54065048322100_1_alg».proof.Proof.Gen.ReferenceIdeal.Read
import proofs.«135928_j54065048322100_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the seven arguments, end with the volume joined with the activation
    table of the other six. -/
theorem algebraic : Cert.algebraic_KernelIdeal_ReferenceIdeal := by
  intro m ρ m' ρ' _ hagree
  refine ⟨_, Cert.KernelIdeal.Out.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1,
    (hagree c).2.2.2.2.1, (hagree c).2.2.2.2.2.1, (hagree c).2.2.2.2.2.2]
  exact Cert.Act.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
